-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S10000x128 : Shape := ⟨2, ![10000, 128]⟩
abbrev S1 : Shape := ⟨1, ![1]⟩
abbrev S10000 : Shape := ⟨1, ![10000]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S1 : S_.BroadcastsInDim S1 (![] : Fin 0 → Fin S1.rank)
  reducesTo_S1_S_d0 : S1.ReducesTo [0] S_
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  main_v18

def fn {F : FTy → Type} [FloatOps F] (main_arg0 : FVec F S16384x128 .f32) (main_arg1 : FVec F S10000x128 .f32) (main_arg2 : FVec F S1 .f32) (main_arg3 : FVec F S10000 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_v13 main_v16
-- ==== Kernel.lean ====
abbrev S16384x128 : Shape := ⟨2, ![16384, 128]⟩
abbrev S10000x128 : Shape := ⟨2, ![10000, 128]⟩
abbrev S1 : Shape := ⟨1, ![1]⟩
abbrev S10000 : Shape := ⟨1, ![10000]⟩
abbrev S_ : Shape := ⟨0, ![]⟩
abbrev S1x10000 : Shape := ⟨2, ![1, 10000]⟩
abbrev S128x10000 : Shape := ⟨2, ![128, 10000]⟩
abbrev S16384 : Shape := ⟨1, ![16384]⟩
abbrev S16384x1 : Shape := ⟨2, ![16384, 1]⟩
abbrev S16384x10000 : Shape := ⟨2, ![16384, 10000]⟩
abbrev S256x128 : Shape := ⟨2, ![256, 128]⟩
abbrev S256x1 : Shape := ⟨2, ![256, 1]⟩
abbrev S256x10000 : Shape := ⟨2, ![256, 10000]⟩
abbrev S128x1024 : Shape := ⟨2, ![128, 1024]⟩
abbrev S256x1024 : Shape := ⟨2, ![256, 1024]⟩
abbrev S1x1024 : Shape := ⟨2, ![1, 1024]⟩
abbrev S128x784 : Shape := ⟨2, ![128, 784]⟩
abbrev S256x784 : Shape := ⟨2, ![256, 784]⟩
abbrev S1x784 : Shape := ⟨2, ![1, 784]⟩

abbrev nBuf : Space → Nat
  | .hbm => 49
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S10000x128, .f32⟩
  | .hbm, ⟨2, _⟩ => ⟨S1, .f32⟩
  | .hbm, ⟨3, _⟩ => ⟨S10000, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S10000, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S10000, .f32⟩
  | .hbm, ⟨23, _⟩ => ⟨S10000, .f32⟩
  | .hbm, ⟨24, _⟩ => ⟨S10000x128, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S10000, .f32⟩
  | .hbm, ⟨35, _⟩ => ⟨S10000, .f32⟩
  | .hbm, ⟨36, _⟩ => ⟨S1x10000, .f32⟩
  | .hbm, ⟨37, _⟩ => ⟨S10000x128, .f32⟩
  | .hbm, ⟨38, _⟩ => ⟨S10000x128, .f32⟩
  | .hbm, ⟨39, _⟩ => ⟨S128x10000, .f32⟩
  | .hbm, ⟨40, _⟩ => ⟨S128x10000, .bf16⟩
  | .hbm, ⟨41, _⟩ => ⟨S16384x128, .bf16⟩
  | .hbm, ⟨42, _⟩ => ⟨S16384x128, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x10000, .f32⟩
  | .local _ .vmem, ⟨0, _⟩ => ⟨S256x128, .bf16⟩
  | .local _ .vmem, ⟨1, _⟩ => ⟨S256x128, .bf16⟩
  | .local _ .vmem, ⟨2, _⟩ => ⟨S128x10000, .bf16⟩
  | .local _ .vmem, ⟨3, _⟩ => ⟨S1x10000, .f32⟩
  | .local _ .vmem, ⟨4, _⟩ => ⟨S256x1, .f32⟩
  | .local _ .vmem, ⟨5, _⟩ => ⟨S256x1, .f32⟩
  | .local _ .vmem, ⟨6, _⟩ => ⟨S256x10000, .f32⟩
  | .local _ .vmem, ⟨7, _⟩ => ⟨S256x10000, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S_ : S1.ShapeCasts S_
  reducesTo_S10000_S_d0 : S10000.ReducesTo [0] S_
  h_S_ : 0 < S_.numel
  bcast_S_S1 : S_.BroadcastsInDim S1 (![] : Fin 0 → Fin S1.rank)
  bcast_S1_S10000_0 : S1.BroadcastsInDim S10000 (![0] : Fin 1 → Fin S10000.rank)
  reducesTo_S10000x128_S10000_d1 : S10000x128.ReducesTo [1] S10000
  bcast_S_S10000 : S_.BroadcastsInDim S10000 (![] : Fin 0 → Fin S10000.rank)
  shapeCasts_S10000_S1x10000 : S10000.ShapeCasts S1x10000
  bcast_S_S10000x128 : S_.BroadcastsInDim S10000x128 (![] : Fin 0 → Fin S10000x128.rank)
  transposes_S10000x128_S128x10000_1_0 : S10000x128.Transposes [1, 0] S128x10000
  bitsLt_bf16_f32 : FTy.bits .bf16 < FTy.bits .f32
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S128x10000_S128x1024_0_0 : ∀ a, (![0, 0] : Fin 2 → Nat) a + S128x1024.size a ≤ S128x10000.size a
  h_S128x1024 : 0 < S128x1024.numel
  shapeCasts_S128x1024_S128x1024 : S128x1024.ShapeCasts S128x1024
  inb_S1x10000_S1x1024_0_0 : ∀ a, (![0, 0] : Fin 2 → Nat) a + S1x1024.size a ≤ S1x10000.size a
  h_S1x1024 : 0 < S1x1024.numel
  shapeCasts_S1x1024_S1x1024 : S1x1024.ShapeCasts S1x1024
  broadcasts_S1x1024_S256x1024 : S1x1024.Broadcasts S256x1024
  broadcasts_S256x1_S256x1024 : S256x1.Broadcasts S256x1024
  inb_S256x10000_S256x1024_0_0 : ∀ a, (![0, 0] : Fin 2 → Nat) a + S256x1024.size a ≤ S256x10000.size a
  h_S256x1024 : 0 < S256x1024.numel
  inb_S128x10000_S128x1024_0_1024 : ∀ a, (![0, 1024] : Fin 2 → Nat) a + S128x1024.size a ≤ S128x10000.size a
  inb_S1x10000_S1x1024_0_1024 : ∀ a, (![0, 1024] : Fin 2 → Nat) a + S1x1024.size a ≤ S1x10000.size a
  inb_S256x10000_S256x1024_0_1024 : ∀ a, (![0, 1024] : Fin 2 → Nat) a + S256x1024.size a ≤ S256x10000.size a
  inb_S128x10000_S128x1024_0_2048 : ∀ a, (![0, 2048] : Fin 2 → Nat) a + S128x1024.size a ≤ S128x10000.size a
  inb_S1x10000_S1x1024_0_2048 : ∀ a, (![0, 2048] : Fin 2 → Nat) a + S1x1024.size a ≤ S1x10000.size a
  inb_S256x10000_S256x1024_0_2048 : ∀ a, (![0, 2048] : Fin 2 → Nat) a + S256x1024.size a ≤ S256x10000.size a
  inb_S128x10000_S128x1024_0_3072 : ∀ a, (![0, 3072] : Fin 2 → Nat) a + S128x1024.size a ≤ S128x10000.size a
  inb_S1x10000_S1x1024_0_3072 : ∀ a, (![0, 3072] : Fin 2 → Nat) a + S1x1024.size a ≤ S1x10000.size a
  inb_S256x10000_S256x1024_0_3072 : ∀ a, (![0, 3072] : Fin 2 → Nat) a + S256x1024.size a ≤ S256x10000.size a
  inb_S128x10000_S128x1024_0_4096 : ∀ a, (![0, 4096] : Fin 2 → Nat) a + S128x1024.size a ≤ S128x10000.size a
  inb_S1x10000_S1x1024_0_4096 : ∀ a, (![0, 4096] : Fin 2 → Nat) a + S1x1024.size a ≤ S1x10000.size a
  inb_S256x10000_S256x1024_0_4096 : ∀ a, (![0, 4096] : Fin 2 → Nat) a + S256x1024.size a ≤ S256x10000.size a
  inb_S128x10000_S128x1024_0_5120 : ∀ a, (![0, 5120] : Fin 2 → Nat) a + S128x1024.size a ≤ S128x10000.size a
  inb_S1x10000_S1x1024_0_5120 : ∀ a, (![0, 5120] : Fin 2 → Nat) a + S1x1024.size a ≤ S1x10000.size a
  inb_S256x10000_S256x1024_0_5120 : ∀ a, (![0, 5120] : Fin 2 → Nat) a + S256x1024.size a ≤ S256x10000.size a
  inb_S128x10000_S128x1024_0_6144 : ∀ a, (![0, 6144] : Fin 2 → Nat) a + S128x1024.size a ≤ S128x10000.size a
  inb_S1x10000_S1x1024_0_6144 : ∀ a, (![0, 6144] : Fin 2 → Nat) a + S1x1024.size a ≤ S1x10000.size a
  inb_S256x10000_S256x1024_0_6144 : ∀ a, (![0, 6144] : Fin 2 → Nat) a + S256x1024.size a ≤ S256x10000.size a
  inb_S128x10000_S128x1024_0_7168 : ∀ a, (![0, 7168] : Fin 2 → Nat) a + S128x1024.size a ≤ S128x10000.size a
  inb_S1x10000_S1x1024_0_7168 : ∀ a, (![0, 7168] : Fin 2 → Nat) a + S1x1024.size a ≤ S1x10000.size a
  inb_S256x10000_S256x1024_0_7168 : ∀ a, (![0, 7168] : Fin 2 → Nat) a + S256x1024.size a ≤ S256x10000.size a
  inb_S128x10000_S128x1024_0_8192 : ∀ a, (![0, 8192] : Fin 2 → Nat) a + S128x1024.size a ≤ S128x10000.size a
  inb_S1x10000_S1x1024_0_8192 : ∀ a, (![0, 8192] : Fin 2 → Nat) a + S1x1024.size a ≤ S1x10000.size a
  inb_S256x10000_S256x1024_0_8192 : ∀ a, (![0, 8192] : Fin 2 → Nat) a + S256x1024.size a ≤ S256x10000.size a
  inb_S128x10000_S128x784_0_9216 : ∀ a, (![0, 9216] : Fin 2 → Nat) a + S128x784.size a ≤ S128x10000.size a
  h_S128x784 : 0 < S128x784.numel
  shapeCasts_S128x784_S128x784 : S128x784.ShapeCasts S128x784
  inb_S1x10000_S1x784_0_9216 : ∀ a, (![0, 9216] : Fin 2 → Nat) a + S1x784.size a ≤ S1x10000.size a
  h_S1x784 : 0 < S1x784.numel
  shapeCasts_S1x784_S1x784 : S1x784.ShapeCasts S1x784
  broadcasts_S1x784_S256x784 : S1x784.Broadcasts S256x784
  broadcasts_S256x1_S256x784 : S256x1.Broadcasts S256x784
  inb_S256x10000_S256x784_0_9216 : ∀ a, (![0, 9216] : Fin 2 → Nat) a + S256x784.size a ≤ S256x10000.size a
  h_S256x784 : 0 < S256x784.numel
  dot_S256x128_S128x1024_S256x1024_1_0_0_1_n_n_wf : DotDims.WF S256x128 S128x1024 S256x1024 [1] [0] [0] [1] [] []
  dot_S256x128_S128x784_S256x784_1_0_0_1_n_n_wf : DotDims.WF S256x128 S128x784 S256x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .bf16 = 32 ∨ (Rect.block (s := S16384x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S128x10000.size a
  hwx0_1 : ∀ i : grid0.Coords, EltTy.bits .bf16 = 32 ∨ (Rect.block (s := S128x10000) S128x10000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x10000.size a ≤ S16384x10000.size a
  hwx0_4 : ∀ i : grid0.Coords, EltTy.bits .f32 = 32 ∨ (Rect.block (s := S16384x10000) S256x10000.size (cc0_transform_4 i) (hinb0_4 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x128_S128x784_S256x784_1_0_0_1_n_n : DotDims S256x128 S128x784 S256x784 where
  lhsContracting := [1]
  rhsContracting := [0]
  lhsNonContracting := [0]
  rhsNonContracting := [1]
  lhsBatch := []
  rhsBatch := []
  wf := dot_S256x128_S128x784_S256x784_1_0_0_1_n_n_wf

abbrev win0_0 : Pipeline.Window sig grid0 :=
  Pipeline.Window.ofSpec (Memref.whole main_v19) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S10000x128 : Shape := ⟨2, ![10000, 128]⟩
abbrev S1 : Shape := ⟨1, ![1]⟩
abbrev S10000 : Shape := ⟨1, ![10000]⟩
abbrev S_ : Shape := ⟨0, ![]⟩
abbrev S16384 : Shape := ⟨1, ![16384]⟩
abbrev S16384x1 : Shape := ⟨2, ![16384, 1]⟩
abbrev S16384x10000 : Shape := ⟨2, ![16384, 10000]⟩
abbrev S1x10000 : Shape := ⟨2, ![1, 10000]⟩

abbrev nBuf : Space → Nat
  | .hbm => 48
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S10000x128, .f32⟩
  | .hbm, ⟨2, _⟩ => ⟨S1, .f32⟩
  | .hbm, ⟨3, _⟩ => ⟨S10000, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S10000x128, .f32⟩
  | .hbm, ⟨9, _⟩ => ⟨S_, .f32⟩
  | .hbm, ⟨10, _⟩ => ⟨S10000, .f32⟩
  | .hbm, ⟨11, _⟩ => ⟨S16384x10000, .f32⟩
  | .hbm, ⟨12, _⟩ => ⟨S_, .f32⟩
  | .hbm, ⟨13, _⟩ => ⟨S16384x10000, .f32⟩
  | .hbm, ⟨14, _⟩ => ⟨S16384x10000, .f32⟩
  | .hbm, ⟨15, _⟩ => ⟨S16384x10000, .f32⟩
  | .hbm, ⟨16, _⟩ => ⟨S16384x10000, .f32⟩
  | .hbm, ⟨17, _⟩ => ⟨S1x10000, .f32⟩
  | .hbm, ⟨18, _⟩ => ⟨S16384x10000, .f32⟩
  | .hbm, ⟨19, _⟩ => ⟨S16384x10000, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S10000, .f32⟩
  | .hbm, ⟨30, _⟩ => ⟨S10000, .f32⟩
  | .hbm, ⟨31, _⟩ => ⟨S10000, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S10000, .f32⟩
  | .hbm, ⟨37, _⟩ => ⟨S10000, .f32⟩
  | .hbm, ⟨38, _⟩ => ⟨S1x10000, .f32⟩
  | .hbm, ⟨39, _⟩ => ⟨S16384x10000, .f32⟩
  | .hbm, ⟨40, _⟩ => ⟨S16384x10000, .f32⟩
  | .hbm, ⟨41, _⟩ => ⟨S16384x10000, .f32⟩
  | .hbm, ⟨42, _⟩ => ⟨S16384x10000, .f32⟩
  | .hbm, ⟨43, _⟩ => ⟨S_, .f32⟩
  | .hbm, ⟨44, _⟩ => ⟨S16384x10000, .f32⟩
  | .hbm, ⟨45, _⟩ => ⟨S16384x10000, .f32⟩
  | .hbm, ⟨46, _⟩ => ⟨S16384x10000, .f32⟩
  | .hbm, ⟨47, _⟩ => ⟨S16384x10000, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S10000x128_S10000_d1 : S10000x128.ReducesTo [1] S10000
  bcast_S_S16384x10000 : S_.BroadcastsInDim S16384x10000 (![] : Fin 0 → Fin S16384x10000.rank)
  bcast_S16384x1_S16384x10000_0_1 : S16384x1.BroadcastsInDim S16384x10000 (![0, 1] : Fin 2 → Fin S16384x10000.rank)
  bcast_S10000_S1x10000_1 : S10000.BroadcastsInDim S1x10000 (![1] : Fin 1 → Fin S1x10000.rank)
  bcast_S1x10000_S16384x10000_0_1 : S1x10000.BroadcastsInDim S16384x10000 (![0, 1] : Fin 2 → Fin S16384x10000.rank)
  shapeCasts_S1_S_ : S1.ShapeCasts S_
  reducesTo_S10000_S_d0 : S10000.ReducesTo [0] S_
  bcast_S_S1 : S_.BroadcastsInDim S1 (![] : Fin 0 → Fin S1.rank)
  bcast_S1_S10000_0 : S1.BroadcastsInDim S10000 (![0] : Fin 1 → Fin S10000.rank)
  dot_S16384x128_S10000x128_S16384x10000_1_1_0_0_n_n_wf : DotDims.WF S16384x128 S10000x128 S16384x10000 [1] [1] [0] [0] [] []

variable [Facts₀]

def dot_S16384x128_S10000x128_S16384x10000_1_1_0_0_n_n : DotDims S16384x128 S10000x128 S16384x10000 where
  lhsContracting := [1]
  rhsContracting := [1]
  lhsNonContracting := [0]
  rhsNonContracting := [0]
  lhsBatch := []
  rhsBatch := []
  wf := dot_S16384x128_S10000x128_S16384x10000_1_1_0_0_n_n_wf

class Facts : Prop extends Facts₀ where

variable [Facts]
-- ==== Proof.Discriminant.lean ====
/-
  The mathematics of the two programs, free of either program's text.

  Both compute, for a sample z (a row of 128 reals), a class mean mu (a row of 128 reals), a shared log-variance
  lc and the class's log-prior L, the Gaussian discriminant score

      L - 1/2 * ( |z - mu|^2 / exp lc + 128 * lc ).

  The reference expands |z - mu|^2 = |z|^2 - 2 <z, mu> + |mu|^2 and divides the whole by exp lc. The kernel
  completes the square the other way round: it scales by 1 / exp lc first, folds -1/2 * (1 / exp lc) into the
  two squared norms and 1 / exp lc into mu before the inner product, and adds the three parts. With z, mu and
  lc finite reals the two are one number: the law is distributivity of the product over the sums, which needs
  the factors finite and is therefore proved in the reals. The log-prior L is the same extended real on both
  sides and is only ever added to a real, so nothing is asked of it.
-/
import Idealize.ShloMosaic.PureOps.Ideal
import Idealize.ShloMosaic.PureOps.Ideal.Laws

noncomputable section

namespace Cert.Discriminant

open Idealize.ShloMosaic

/-! ## The float words both programs spell, as the reals they denote -/

theorem word_zero : Ideal.ofBits .f32 0x00000000#32 = 0 := Ideal.ofBits_zero_f32

theorem word_one : Ideal.ofBits .f32 0x3F800000#32 = ((1 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

/-! ## The two forms -/

/-- The kernel's form of the score: the reciprocal variance `iv`, the scale `-1/2 * iv` folded into each squared
    norm, `iv` folded into `mu` inside the inner product. -/
def kernelForm (L lc : EReal) (z mu : Fin 128 → EReal) : EReal :=
  ((L - Ideal.ofBits .f32 0x3F000000#32 * (Ideal.ofBits .f32 0x43000000#32 * lc))
      + (Ideal.ofBits .f32 0xBF000000#32 * Ideal.div (Ideal.ofBits .f32 0x3F800000#32) (Ideal.exp lc))
          * (Ideal.ofBits .f32 0x00000000#32 + ∑ k : Fin 128, mu k * mu k))
    + (Ideal.ofBits .f32 0xBF000000#32 * Ideal.div (Ideal.ofBits .f32 0x3F800000#32) (Ideal.exp lc))
        * (Ideal.ofBits .f32 0x00000000#32 + ∑ k : Fin 128, z k * z k)
    + ∑ k : Fin 128, z k * (mu k * Ideal.div (Ideal.ofBits .f32 0x3F800000#32) (Ideal.exp lc))

/-- The reference's form: the expanded squared distance divided by the variance. -/
def referenceForm (L lc : EReal) (z mu : Fin 128 → EReal) : EReal :=
  L - Ideal.ofBits .f32 0x3F000000#32
        * (Ideal.div
            (((Ideal.ofBits .f32 0x00000000#32 + ∑ k : Fin 128, z k * z k)
                - Ideal.ofBits .f32 0x40000000#32 * ∑ k : Fin 128, z k * mu k)
              + (Ideal.ofBits .f32 0x00000000#32 + ∑ k : Fin 128, mu k * mu k))
            (Ideal.exp lc)
          + Ideal.ofBits .f32 0x43000000#32 * lc)

/-! ## The law -/

/-- A finite sum of reals, summed in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The completed square: with finite z, mu and lc the kernel's form is the reference's. In the reals,
    with v = exp lc ≠ 0: -1/2 * (1/v) * |mu|^2 - 1/2 * (1/v) * |z|^2 + sum z (mu / v)
    = -1/2 * ((|z|^2 - 2 <z, mu> + |mu|^2) / v). -/
theorem kernelForm_eq_referenceForm (L : EReal) (l : ℝ) (z mu : Fin 128 → ℝ) :
    kernelForm L (l : EReal) (fun k => (z k : EReal)) (fun k => (mu k : EReal))
      = referenceForm L (l : EReal) (fun k => (z k : EReal)) (fun k => (mu k : EReal)) := by
  have hv : Real.exp l ≠ 0 := (Real.exp_pos l).ne'
  unfold kernelForm referenceForm
  simp only [word_zero, word_one, word_half, word_neg_half, word_two, word_128, Ideal.exp_coe,
    Ideal.div_coe hv, zero_add, ← EReal.coe_mul, coe_sum, ← EReal.coe_add, ← EReal.coe_sub]
  rw [sub_eq_add_neg, sub_eq_add_neg, ← EReal.coe_neg, ← EReal.coe_neg, add_assoc, add_assoc, add_assoc,
    ← EReal.coe_add, ← EReal.coe_add, ← EReal.coe_add]
  congr 2
  simp only [Finset.mul_sum, Finset.sum_mul]
  have e : ∀ k : Fin 128, z k * (mu k * (1 * (1 / Real.exp l))) = (1 / Real.exp l) * (z k * mu k) := fun k => by ring
  simp only [e, ← Finset.mul_sum]
  ring

end Cert.Discriminant

end
-- ==== Proof.ScoreChunk.lean ====
/-
  One column chunk of a score tile, at an index.

  The kernel body fills its 256 x 10000 output tile in ten column chunks (nine of 1024 columns, one of 784). For
  a chunk it multiplies the 256 x 128 tile of samples by the matching 128 x (chunk) columns of the scaled,
  transposed means, and adds to that product the chunk of the per-class bias row (broadcast down the rows) and
  the per-sample column term (broadcast across the columns). Read at row p and chunk column q this is

      bias q + rowterm p + sum over k of sample (p, k) * means (k, q).

  The product is read once, for any chunk width b: a contraction of the samples' axis 1 with the means' axis 0,
  no batch axes, into a zero accumulator.
-/
import proofs.«430453_j54116587929768_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.TcCoe Idealize.ShloMosaic.ValueIdx

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product, for any chunk width -/

/-- The dimension numbers of the body's products, for a chunk of b columns: the left operand's axis 1 contracted
    with the right operand's axis 0, no batch axes. -/
abbrev chunkDims (b : ℕ)
    (wf : DotDims.WF (⟨2, ![256, 128]⟩ : Shape) (⟨2, ![128, b]⟩ : Shape) (⟨2, ![256, b]⟩ : Shape) [1] [0] [0] [1] [] []) :
    DotDims (⟨2, ![256, 128]⟩ : Shape) (⟨2, ![128, b]⟩ : Shape) (⟨2, ![256, b]⟩ : Shape) :=
  ⟨[1], [0], [0], [1], [], [], wf⟩

section
variable {b : ℕ} (wf : DotDims.WF (⟨2, ![256, 128]⟩ : Shape) (⟨2, ![128, b]⟩ : Shape) (⟨2, ![256, b]⟩ : Shape) [1] [0] [0] [1] [] [])

/-- The left operand is read at the output's row … -/
theorem lhs_row (i : (⟨2, ![256, b]⟩ : Shape).Idx) (q : (chunkDims b wf).contr.Idx) :
    ((chunkDims b wf).lhsIdx i q 0).val = (i 0).val := by
  unfold DotDims.lhsIdx
  rw [dif_neg (show ¬(0 : Fin (⟨2, ![256, 128]⟩ : Shape).rank) ∈ (chunkDims b wf).lhsBatch from List.not_mem_nil),
    dif_pos (show (0 : Fin (⟨2, ![256, 128]⟩ : Shape).rank) ∈ (chunkDims b wf).lhsNonContracting from List.mem_singleton.mpr rfl)]
  rfl
/-- … and the contraction index, -/
theorem lhs_contr (i : (⟨2, ![256, b]⟩ : Shape).Idx) (q : (chunkDims b wf).contr.Idx) :
    ((chunkDims b wf).lhsIdx i q 1).val = (q ⟨0, by rw [DotDims.rank_contr]; exact Nat.one_pos⟩).val :=
  (chunkDims b wf).lhsIdx_val_of_single rfl i q
/-- the right operand at the contraction index … -/
theorem rhs_contr (i : (⟨2, ![256, b]⟩ : Shape).Idx) (q : (chunkDims b wf).contr.Idx) :
    ((chunkDims b wf).rhsIdx i q 0).val = (q ⟨0, by rw [DotDims.rank_contr]; exact Nat.one_pos⟩).val :=
  (chunkDims b wf).rhsIdx_val_of_single rfl i q
/-- … and the output's column. -/
theorem rhs_col (i : (⟨2, ![256, b]⟩ : Shape).Idx) (q : (chunkDims b wf).contr.Idx) :
    ((chunkDims b wf).rhsIdx i q 1).val = (i 1).val := by
  unfold DotDims.rhsIdx
  rw [dif_neg (show ¬(1 : Fin (⟨2, ![128, b]⟩ : Shape).rank) ∈ (chunkDims b wf).rhsBatch from List.not_mem_nil),
    dif_pos (show (1 : Fin (⟨2, ![128, b]⟩ : Shape).rank) ∈ (chunkDims b wf).rhsNonContracting from List.mem_singleton.mpr rfl)]
  rfl

/-- Into a zero accumulator the product at (p, q) is the inner product of the left operand's row p with the right
    operand's column q. -/
theorem matmul_chunkDims_apply (l : FVec Ideal (⟨2, ![256, 128]⟩ : Shape) .bf16) (r : FVec Ideal (⟨2, ![128, b]⟩ : Shape) .bf16)
    (p : Fin 256) (q : Fin b) :
    matmul (chunkDims b wf) none l r (constant (⟨2, ![256, b]⟩ : Shape) .f32 0x00000000#32) (ix2 p q)
      = ∑ k : Fin 128, l (ix2 p k) * r (ix2 k q) := by
  simp only [matmul]
  rw [Ideal.matmul_constant_zero_apply, ← Equiv.sum_comp (contrEquiv1 (chunkDims b wf) 128 rfl rfl).symm]
  refine Finset.sum_congr rfl fun k _ => ?_
  have hk := contrEquiv1_symm_val (chunkDims b wf) 128 rfl rfl k
  have el : (chunkDims b wf).lhsIdx (ix2 p q) ((contrEquiv1 (chunkDims b wf) 128 rfl rfl).symm k) = ix2 p k :=
    funext fun a => Fin.ext (by
      match a with
      | ⟨0, _⟩ => exact lhs_row wf _ _
      | ⟨1, _⟩ => exact (lhs_contr wf _ _).trans hk)
  have er : (chunkDims b wf).rhsIdx (ix2 p q) ((contrEquiv1 (chunkDims b wf) 128 rfl rfl).symm k) = ix2 k q :=
    funext fun a => Fin.ext (by
      match a with
      | ⟨0, _⟩ => exact (rhs_contr wf _ _).trans hk
      | ⟨1, _⟩ => exact rhs_col wf _ _)
  rw [el, er]

end

/-- The same for any record with those dimension numbers (the printed program names one per chunk width). -/
theorem matmul_chunk_apply {b : ℕ} (D : DotDims (⟨2, ![256, 128]⟩ : Shape) (⟨2, ![128, b]⟩ : Shape) (⟨2, ![256, b]⟩ : Shape))
    (hlc : D.lhsContracting = [1]) (hrc : D.rhsContracting = [0]) (hln : D.lhsNonContracting = [0])
    (hrn : D.rhsNonContracting = [1]) (hlb : D.lhsBatch = []) (hrb : D.rhsBatch = [])
    (l : FVec Ideal (⟨2, ![256, 128]⟩ : Shape) .bf16) (r : FVec Ideal (⟨2, ![128, b]⟩ : Shape) .bf16) (p : Fin 256) (q : Fin b) :
    matmul D none l r (constant (⟨2, ![256, b]⟩ : Shape) .f32 0x00000000#32) (ix2 p q)
      = ∑ k : Fin 128, l (ix2 p k) * r (ix2 k q) := by
  obtain ⟨lc, rc, ln, rn, lb, rb, wf⟩ := D
  dsimp only at hlc hrc hln hrn hlb hrb
  subst hlc hrc hln hrn hlb hrb
  exact matmul_chunkDims_apply wf l r p q

/-! ## A chunk's stored value -/

/-- A 1024-column chunk at (p, q). -/
theorem chunk_1024_apply (v1 : FVec Ideal S256x128 .bf16) (v3 : FVec Ideal S256x1 .f32) (w : Vec Ideal S128x1024 .bf16)
    (b : Vec Ideal S1x1024 .f32) (p : Fin 256) (q : Fin 1024) :
    k0_pay7 v1 v3 w b (ix2 p q)
      = (b (ix2 (0 : Fin 1) q) + v3 (ix2 p (0 : Fin 1))) + ∑ k : Fin 128, v1 (ix2 p k) * w (ix2 k q) := by
  unfold k0_pay7
  show (broadcastTo S256x1024 (shapeCast S1x1024 b shapeCasts_S1x1024_S1x1024) broadcasts_S1x1024_S256x1024 (ix2 p q)
        + broadcastTo S256x1024 v3 broadcasts_S256x1_S256x1024 (ix2 p q))
      + matmul dot_S256x128_S128x1024_S256x1024_1_0_0_1_n_n none v1 (shapeCast S128x1024 w shapeCasts_S128x1024_S128x1024)
          (constant S256x1024 .f32 0x00000000#32) (ix2 p q) = _
  rw [shapeCast_self, shapeCast_self, broadcastTo_1b_ab_apply, broadcastTo_a1_ab_apply,
    matmul_chunk_apply dot_S256x128_S128x1024_S256x1024_1_0_0_1_n_n rfl rfl rfl rfl rfl rfl]

/-- The 784-column chunk at (p, q). -/
theorem chunk_784_apply (v1 : FVec Ideal S256x128 .bf16) (v3 : FVec Ideal S256x1 .f32) (w : Vec Ideal S128x784 .bf16)
    (b : Vec Ideal S1x784 .f32) (p : Fin 256) (q : Fin 784) :
    k0_pay1 v3 (k0_pay13 v1 w) b (ix2 p q)
      = (b (ix2 (0 : Fin 1) q) + v3 (ix2 p (0 : Fin 1))) + ∑ k : Fin 128, v1 (ix2 p k) * w (ix2 k q) := by
  unfold k0_pay1 k0_pay13
  show (broadcastTo S256x784 (shapeCast S1x784 b shapeCasts_S1x784_S1x784) broadcasts_S1x784_S256x784 (ix2 p q)
        + broadcastTo S256x784 v3 broadcasts_S256x1_S256x784 (ix2 p q))
      + matmul dot_S256x128_S128x784_S256x784_1_0_0_1_n_n none v1 (shapeCast S128x784 w shapeCasts_S128x784_S128x784)
          (constant S256x784 .f32 0x00000000#32) (ix2 p q) = _
  rw [shapeCast_self, shapeCast_self, broadcastTo_1b_ab_apply, broadcastTo_a1_ab_apply,
    matmul_chunk_apply dot_S256x128_S128x784_S256x784_1_0_0_1_n_n rfl rfl rfl rfl rfl rfl]

end Cert.KernelIdeal.Chunk

end
-- ==== Proof.ScoreTile.lean ====
/-
  What one grid point leaves in its output tile.

  The body stores its 256 x 10000 tile in ten column chunks; each chunk is, at (row, column), the bias of the
  column plus the row term of the row plus the inner product of the row of samples with the column of scaled
  means (the chunk lemmas). The ten rectangles tile the block, and every chunk reads the same three formulas at
  the block's own (row, column): so the block is ONE function of the point's four input blocks,

      tile (r, c) = bias (0, c) + rowterm (r, 0) + sum over k of samples (r, k) * means (k, c).
-/
import proofs.«430453_j54116587929768_3_alg».proof.Proof.Gen.KernelIdeal.Frame
import proofs.«430453_j54116587929768_3_alg».proof.Proof.ScoreChunk
import Idealize.ShloMosaic.Lib.Pipeline.Value
import Idealize.ShloMosaic.Lib.ValueIdx
import Idealize.ShloMosaic.Lib.Tactic

set_option maxRecDepth 16384

noncomputable section

namespace Cert.KernelIdeal.Tile

open Cert.KernelIdeal Cert.KernelIdeal.Gen Cert.KernelIdeal.Chunk
open Idealize.ShloMosaic Idealize.ShloMosaic.TcCoe Idealize.ShloMosaic.ValueIdx Idealize.ShloMosaic.Tactic

/-- The tile as one function of the point's blocks: samples `x0` [256, 128], scaled transposed means `x1`
    [128, 10000], bias row `x2` [1, 10000], row-term column `x3` [256, 1]. -/
def tile (x0 : Vec Ideal S256x128 .bf16) (x1 : Vec Ideal S128x10000 .bf16) (x2 : Vec Ideal S1x10000 .f32)
    (x3 : Vec Ideal S256x1 .f32) : S256x10000.Idx → EReal := fun y =>
  (x2 (ix2 (0 : Fin 1) (y 1)) + x3 (ix2 (y 0) (0 : Fin 1))) + ∑ k : Fin 128, x0 (ix2 (y 0) k) * x1 (ix2 k (y 1))

theorem hz : (![0, 0] : Fin 2 → Nat) = fun _ => 0 := funext fun a => by fin_cases a <;> rfl

/-! ## The ten stored values are one formula

The first three chunks apply the identity shape casts of the two loaded blocks inside the stored value, the later
ones take them already cast; all nine wide chunks are the same term. -/

theorem cast_samples (v0 : Vec Ideal S256x128 .bf16) : k0_pay2 v0 = v0 := shapeCast_self _ _
theorem cast_rowterm (v2 : Vec Ideal S256x1 .f32) : k0_pay3 v2 = v2 := shapeCast_self _ _

theorem pay4_eq (v0 : Vec Ideal S256x128 .bf16) (v2 : Vec Ideal S256x1 .f32) (w : Vec Ideal S128x1024 .bf16) (b : Vec Ideal S1x1024 .f32) :
    k0_pay4 v0 v2 w b = k0_pay7 (k0_pay2 v0) (k0_pay3 v2) w b := rfl
theorem pay5_eq (v0 : Vec Ideal S256x128 .bf16) (v2 : Vec Ideal S256x1 .f32) (w : Vec Ideal S128x1024 .bf16) (b : Vec Ideal S1x1024 .f32) :
    k0_pay5 v0 v2 w b = k0_pay7 (k0_pay2 v0) (k0_pay3 v2) w b := rfl
theorem pay6_eq (v0 : Vec Ideal S256x128 .bf16) (v2 : Vec Ideal S256x1 .f32) (w : Vec Ideal S128x1024 .bf16) (b : Vec Ideal S1x1024 .f32) :
    k0_pay6 v0 v2 w b = k0_pay7 (k0_pay2 v0) (k0_pay3 v2) w b := rfl
theorem pay8_eq (v1 : FVec Ideal S256x128 .bf16) (v3 : FVec Ideal S256x1 .f32) (w : Vec Ideal S128x1024 .bf16) (b : Vec Ideal S1x1024 .f32) :
    k0_pay8 v1 v3 w b = k0_pay7 v1 v3 w b := rfl
theorem pay9_eq (v1 : FVec Ideal S256x128 .bf16) (v3 : FVec Ideal S256x1 .f32) (w : Vec Ideal S128x1024 .bf16) (b : Vec Ideal S1x1024 .f32) :
    k0_pay9 v1 v3 w b = k0_pay7 v1 v3 w b := rfl
theorem pay10_eq (v1 : FVec Ideal S256x128 .bf16) (v3 : FVec Ideal S256x1 .f32) (w : Vec Ideal S128x1024 .bf16) (b : Vec Ideal S1x1024 .f32) :
    k0_pay10 v1 v3 w b = k0_pay7 v1 v3 w b := rfl
theorem pay11_eq (v1 : FVec Ideal S256x128 .bf16) (v3 : FVec Ideal S256x1 .f32) (w : Vec Ideal S128x1024 .bf16) (b : Vec Ideal S1x1024 .f32) :
    k0_pay11 v1 v3 w b = k0_pay7 v1 v3 w b := rfl
theorem pay12_eq (v1 : FVec Ideal S256x128 .bf16) (v3 : FVec Ideal S256x1 .f32) (w : Vec Ideal S128x1024 .bf16) (b : Vec Ideal S1x1024 .f32) :
    k0_pay12 v1 v3 w b = k0_pay7 v1 v3 w b := rfl

/-! ## A chunk stored at column offset o is the tile's formula on its rectangle -/

/-- A chunk of b columns loaded and stored at columns o … o + b - 1: a stored value that reads, at (p, q), the
    chunk's formula of the loaded column windows is the tile's formula at row p, column o + q. -/
theorem piece_of_chunk (x0 : Vec Ideal S256x128 .bf16) (x1 : Vec Ideal S128x10000 .bf16) (x2 : Vec Ideal S1x10000 .f32)
    (x3 : Vec Ideal S256x1 .f32) {b : ℕ} (o : ℕ)
    (h5 : ∀ a, (![0, o] : Fin 2 → ℕ) a + (![256, b] : Fin 2 → ℕ) a ≤ S256x10000.size a)
    (h2 : ∀ a, (![0, o] : Fin 2 → ℕ) a + (![128, b] : Fin 2 → ℕ) a ≤ S128x10000.size a)
    (h3 : ∀ a, (![0, o] : Fin 2 → ℕ) a + (![1, b] : Fin 2 → ℕ) a ≤ S1x10000.size a)
    (stored : (⟨2, ![256, b]⟩ : Shape).Idx → EReal)
    (hstored : ∀ (p : Fin 256) (q : Fin b), stored (ix2 p q)
      = (View.ld x2 (Rect.unit (s := S1x10000) ![0, o] ![1, b] h3) (ix2 (0 : Fin 1) q) + x3 (ix2 p (0 : Fin 1)))
        + ∑ k : Fin 128, x0 (ix2 p k) * View.ld x1 (Rect.unit (s := S128x10000) ![0, o] ![128, b] h2) (ix2 k q))
    (x : (Rect.unit (s := S256x10000) ![0, o] ![256, b] h5).shape.Idx) :
    stored x = tile x0 x1 x2 x3 ((Rect.unit (s := S256x10000) ![0, o] ![256, b] h5).emb x) := by
  obtain ⟨p, q, rfl⟩ : ∃ (p : Fin 256) (q : Fin b), x = ix2 p q := ⟨x 0, x 1, eq_ix2 x⟩
  rw [hstored]
  unfold tile
  have hb : View.ld x2 (Rect.unit (s := S1x10000) ![0, o] ![1, b] h3) (ix2 (0 : Fin 1) q)
      = x2 (ix2 (0 : Fin 1) ((Rect.unit (s := S256x10000) ![0, o] ![256, b] h5).emb (ix2 p q) 1)) :=
    congrArg x2 (Shape.idx_ext₂ (by show 0 + 1 * 0 = 0; rfl) rfl)
  have hr : x3 (ix2 p (0 : Fin 1)) = x3 (ix2 ((Rect.unit (s := S256x10000) ![0, o] ![256, b] h5).emb (ix2 p q) 0) (0 : Fin 1)) :=
    congrArg x3 (Shape.idx_ext₂ (by show p.val = 0 + 1 * p.val; omega) rfl)
  have hs : ∀ k : Fin 128, x0 (ix2 p k) * View.ld x1 (Rect.unit (s := S128x10000) ![0, o] ![128, b] h2) (ix2 k q)
      = x0 (ix2 ((Rect.unit (s := S256x10000) ![0, o] ![256, b] h5).emb (ix2 p q) 0) k) * x1 (ix2 k ((Rect.unit (s := S256x10000) ![0, o] ![256, b] h5).emb (ix2 p q) 1)) := fun k => by
    rw [show x0 (ix2 p k) = x0 (ix2 ((Rect.unit (s := S256x10000) ![0, o] ![256, b] h5).emb (ix2 p q) 0) k) from
      congrArg x0 (Shape.idx_ext₂ (by show p.val = 0 + 1 * p.val; omega) rfl)]
    exact congrArg (_ * ·) (congrArg x1 (Shape.idx_ext₂ (by show 0 + 1 * k.val = k.val; omega) rfl))
  rw [hb, hr, Finset.sum_congr rfl fun k _ => hs k]

/-! ## The tile -/

/-- What the body leaves in the output's staging buffer, for any staging memrefs and any contents of the four
    input blocks, is `tile` of those blocks: every stored chunk agrees with it on its rectangle, and the ten
    rectangles cover the block. -/
theorem out_eq_tile (c : Dev nD) (i : grid0.Coords) (arg1 : Memref sig .tc .vmem S256x128 .bf16) (harg1 : arg1.IsWhole) (arg2 : Memref sig .tc .vmem S128x10000 .bf16) (harg2 : arg2.IsWhole) (arg3 : Memref sig .tc .vmem S1x10000 .f32) (harg3 : arg3.IsWhole) (arg4 : Memref sig .tc .vmem S256x1 .f32) (harg4 : arg4.IsWhole) (arg5 : Memref sig .tc .vmem S256x10000 .f32) (harg5 : arg5.IsWhole)
    (x0 : Vec Ideal S256x128 .bf16) (x1 : Vec Ideal S128x10000 .bf16) (x2 : Vec Ideal S1x10000 .f32) (x3 : Vec Ideal S256x1 .f32) :
    out0_A_4 c i arg1 harg1 arg2 harg2 arg3 harg3 arg4 harg4 arg5 harg5 x0 x1 x2 x3 = tile x0 x1 x2 x3 := by
  funext y
  unfold out0_A_4
  refine View.read_writes_apply_of_pieces _ _ (tile x0 x1 x2 x3) _ ?_ y (cover0_A_4 c i arg1 harg1 arg2 harg2 arg3 harg3 arg4 harg4 arg5 harg5 x0 x1 x2 x3 y)
  unfold kernelRun0_A
  dsimp only
  sl_unfold_words
  simp only [View.readAt_eq_ld, harg1.read_unread, harg2.read_unread, harg3.read_unread, harg4.read_unread,
    View.ld_unit_zero (S := S256x128) hz, View.ld_unit_zero (S := S256x1) hz,
    pay4_eq, pay5_eq, pay6_eq, pay8_eq, pay9_eq, pay10_eq, pay11_eq, pay12_eq, cast_samples, cast_rowterm]
  intro pc hpc
  simp only [List.mem_cons, List.not_mem_nil, or_false] at hpc
  rcases hpc with rfl | rfl | rfl | rfl | rfl | rfl | rfl | rfl | rfl | rfl
  · exact piece_of_chunk x0 x1 x2 x3 9216 inb_S256x10000_S256x784_0_9216 inb_S128x10000_S128x784_0_9216 inb_S1x10000_S1x784_0_9216 _
      (fun p q => chunk_784_apply x0 x3 _ _ p q)
  · exact piece_of_chunk x0 x1 x2 x3 8192 inb_S256x10000_S256x1024_0_8192 inb_S128x10000_S128x1024_0_8192 inb_S1x10000_S1x1024_0_8192 _
      (fun p q => chunk_1024_apply x0 x3 _ _ p q)
  · exact piece_of_chunk x0 x1 x2 x3 7168 inb_S256x10000_S256x1024_0_7168 inb_S128x10000_S128x1024_0_7168 inb_S1x10000_S1x1024_0_7168 _
      (fun p q => chunk_1024_apply x0 x3 _ _ p q)
  · exact piece_of_chunk x0 x1 x2 x3 6144 inb_S256x10000_S256x1024_0_6144 inb_S128x10000_S128x1024_0_6144 inb_S1x10000_S1x1024_0_6144 _
      (fun p q => chunk_1024_apply x0 x3 _ _ p q)
  · exact piece_of_chunk x0 x1 x2 x3 5120 inb_S256x10000_S256x1024_0_5120 inb_S128x10000_S128x1024_0_5120 inb_S1x10000_S1x1024_0_5120 _
      (fun p q => chunk_1024_apply x0 x3 _ _ p q)
  · exact piece_of_chunk x0 x1 x2 x3 4096 inb_S256x10000_S256x1024_0_4096 inb_S128x10000_S128x1024_0_4096 inb_S1x10000_S1x1024_0_4096 _
      (fun p q => chunk_1024_apply x0 x3 _ _ p q)
  · exact piece_of_chunk x0 x1 x2 x3 3072 inb_S256x10000_S256x1024_0_3072 inb_S128x10000_S128x1024_0_3072 inb_S1x10000_S1x1024_0_3072 _
      (fun p q => chunk_1024_apply x0 x3 _ _ p q)
  · exact piece_of_chunk x0 x1 x2 x3 2048 inb_S256x10000_S256x1024_0_2048 inb_S128x10000_S128x1024_0_2048 inb_S1x10000_S1x1024_0_2048 _
      (fun p q => chunk_1024_apply x0 x3 _ _ p q)
  · exact piece_of_chunk x0 x1 x2 x3 1024 inb_S256x10000_S256x1024_0_1024 inb_S128x10000_S128x1024_0_1024 inb_S1x10000_S1x1024_0_1024 _
      (fun p q => chunk_1024_apply x0 x3 _ _ p q)
  · exact piece_of_chunk x0 x1 x2 x3 0 inb_S256x10000_S256x1024_0_0 inb_S128x10000_S128x1024_0_0 inb_S1x10000_S1x1024_0_0 _
      (fun p q => chunk_1024_apply x0 x3 _ _ p q)

end Cert.KernelIdeal.Tile

end
-- ==== Proof.HostStages.lean ====
/-
  What the kernel's host code hands the region: the four staged arrays as functions of the arguments.

  With lc the log-variance (the one entry of the third argument), iv = 1 / exp lc and sc = -1/2 * iv:
    samples      the samples, narrowed (no change in the exact reading);
    meansT       (k, c) -> mu (c, k) * iv, the means scaled and transposed, narrowed;
    biasRow      (0, c) -> (logPrior c - 1/2 * (128 * lc)) + sc * sum_k mu (c, k)^2;
    rowTerm      (n, 0) -> sc * sum_k z (n, k)^2;
  logPrior is the log-softmax of the fourth argument, kept as the chain of operations the host runs.
  Each is first stated for every reading of the floats (the composed term of the host operations), then read
  at an index in the exact reading.
-/
import proofs.«430453_j54116587929768_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-! ## The stages, for every reading of the floats -/

/-- The log-variance as a scalar. -/
def logVar (a2 : (⟨S1, .f32⟩ : BufTy).Contents (Elt F)) : (⟨S_, .f32⟩ : BufTy).Contents (Elt F) :=
  shapeCast _ a2 shapeCasts_S1_S_

/-- iv = 1 / exp lc. -/
def invVar (a2 : (⟨S1, .f32⟩ : BufTy).Contents (Elt F)) : (⟨S_, .f32⟩ : BufTy).Contents (Elt F) :=
  Host.divf (constant S_ .f32 0x3F800000#32) (Host.exp (logVar a2))

/-- sc = -1/2 * iv. -/
def scale (a2 : (⟨S1, .f32⟩ : BufTy).Contents (Elt F)) : (⟨S_, .f32⟩ : BufTy).Contents (Elt F) :=
  mulf (constant S_ .f32 0xBF000000#32) (invVar a2)

/-- 1/2 * (128 * lc). -/
def halfLogDet (a2 : (⟨S1, .f32⟩ : BufTy).Contents (Elt F)) : (⟨S_, .f32⟩ : BufTy).Contents (Elt F) :=
  mulf (constant S_ .f32 0x3F000000#32) (mulf (constant S_ .f32 0x43000000#32) (logVar a2))

/-- The shifted logits x - max x of the log-softmax. -/
def shifted (a3 : (⟨S10000, .f32⟩ : BufTy).Contents (Elt F)) : (⟨S10000, .f32⟩ : BufTy).Contents (Elt F) :=
  subf a3 (broadcastInDim S10000 ![0] bcast_S1_S10000_0 (broadcastInDim S1 ![] bcast_S_S1
    (maximumf (constant S_ .f32 0xFF800000#32) (Host.reduce FloatOps.maximumf a3 (constant S_ .f32 0xFF800000#32) reducesTo_S10000_S_d0 h_S_))))

/-- The log-softmax of the prior logits: shifted - log (sum (exp shifted)). -/
def logPrior (a3 : (⟨S10000, .f32⟩ : BufTy).Contents (Elt F)) : (⟨S10000, .f32⟩ : BufTy).Contents (Elt F) :=
  subf (shifted a3) (broadcastInDim S10000 ![0] bcast_S1_S10000_0 (Host.log (broadcastInDim S1 ![] bcast_S_S1
    (Host.reduceAdd (Host.exp (shifted a3)) (constant S_ .f32 0x00000000#32) reducesTo_S10000_S_d0 h_S_))))

/-- The squared norm of each mean. -/
def meanSq (a1 : (⟨S10000x128, .f32⟩ : BufTy).Contents (Elt F)) : (⟨S10000, .f32⟩ : BufTy).Contents (Elt F) :=
  Host.reduceAdd (mulf a1 a1) (constant S_ .f32 0x00000000#32) reducesTo_S10000x128_S10000_d1 h_S_

/-- The per-class bias. -/
def bias (a1 : (⟨S10000x128, .f32⟩ : BufTy).Contents (Elt F)) (a2 : (⟨S1, .f32⟩ : BufTy).Contents (Elt F))
    (a3 : (⟨S10000, .f32⟩ : BufTy).Contents (Elt F)) : (⟨S10000, .f32⟩ : BufTy).Contents (Elt F) :=
  addf (subf (logPrior a3) (broadcastInDim S10000 ![] bcast_S_S10000 (halfLogDet a2)))
    (mulf (broadcastInDim S10000 ![] bcast_S_S10000 (scale a2)) (meanSq a1))

/-- The bias as the one row the region stages. -/
def biasRow (a1 : (⟨S10000x128, .f32⟩ : BufTy).Contents (Elt F)) (a2 : (⟨S1, .f32⟩ : BufTy).Contents (Elt F))
    (a3 : (⟨S10000, .f32⟩ : BufTy).Contents (Elt F)) : (⟨S1x10000, .f32⟩ : BufTy).Contents (Elt F) :=
  shapeCast _ (bias a1 a2 a3) shapeCasts_S10000_S1x10000

/-- The means scaled by iv, transposed, narrowed. -/
def meansT (a1 : (⟨S10000x128, .f32⟩ : BufTy).Contents (Elt F)) (a2 : (⟨S1, .f32⟩ : BufTy).Contents (Elt F)) :
    (⟨S128x10000, .bf16⟩ : BufTy).Contents (Elt F) :=
  truncf .bf16 (transpose S128x10000 [1, 0] (mulf a1 (broadcastInDim S10000x128 ![] bcast_S_S10000x128 (invVar a2)))
    transposes_S10000x128_S128x10000_1_0) bitsLt_bf16_f32

/-- The samples, narrowed. -/
def samples (a0 : (⟨S16384x128, .f32⟩ : BufTy).Contents (Elt F)) : (⟨S16384x128, .bf16⟩ : BufTy).Contents (Elt F) :=
  truncf .bf16 a0 bitsLt_bf16_f32

/-- The squared norm of each sample. -/
def sampleSq (a0 : (⟨S16384x128, .f32⟩ : BufTy).Contents (Elt F)) : (⟨S16384, .f32⟩ : BufTy).Contents (Elt F) :=
  Host.reduceAdd (mulf a0 a0) (constant S_ .f32 0x00000000#32) reducesTo_S16384x128_S16384_d1 h_S_

/-- The per-sample term as the column the region stages. -/
def rowTerm (a0 : (⟨S16384x128, .f32⟩ : BufTy).Contents (Elt F)) (a2 : (⟨S1, .f32⟩ : BufTy).Contents (Elt F)) :
    (⟨S16384x1, .f32⟩ : BufTy).Contents (Elt F) :=
  mulf (broadcastInDim S16384x1 ![] bcast_S_S16384x1 (scale a2))
    (broadcastInDim S16384x1 ![0] bcast_S16384_S16384x1_0 (sampleSq a0))

/-! ## The region finds them in its four input arrays -/

variable (m : (ℓ : Loc nD τ sig) → Buf (Elt F) ℓ)

theorem V_samples (c : Dev nD) :
    (V m c main_v19 : (⟨S16384x128, .bf16⟩ : BufTy).Contents (Elt F)) = samples (m ((c.tc : Thread nD τ).loc main_arg0)) := by
  dsimp only [V]
  simp only [hostOps0, hostOps0_1, hostOps0_2, List.flatten_cons, List.flatten_nil, List.append_nil, List.cons_append, List.nil_append]
  after_results
  rfl

set_option maxHeartbeats 2000000 in
theorem V_meansT (c : Dev nD) :
    (V m c main_v18 : (⟨S128x10000, .bf16⟩ : BufTy).Contents (Elt F))
      = meansT (m ((c.tc : Thread nD τ).loc main_arg1)) (m ((c.tc : Thread nD τ).loc main_arg2)) := by
  dsimp only [V]
  simp only [hostOps0, hostOps0_1, hostOps0_2, List.flatten_cons, List.flatten_nil, List.append_nil, List.cons_append, List.nil_append]
  after_results
  rfl

set_option maxHeartbeats 2000000 in
theorem V_biasRow (c : Dev nD) :
    (V m c main_v14 : (⟨S1x10000, .f32⟩ : BufTy).Contents (Elt F))
      = biasRow (m ((c.tc : Thread nD τ).loc main_arg1)) (m ((c.tc : Thread nD τ).loc main_arg2)) (m ((c.tc : Thread nD τ).loc main_arg3)) := by
  dsimp only [V]
  simp only [hostOps0, hostOps0_1, hostOps0_2, List.flatten_cons, List.flatten_nil, List.append_nil, List.cons_append, List.nil_append]
  after_results
  try simp only [TRef.ofBuf, TRef.toBuf, cast_eq]
  unfold biasRow bias logPrior shifted meanSq halfLogDet scale invVar logVar
  rfl

set_option maxHeartbeats 2000000 in
theorem V_rowTerm (c : Dev nD) :
    (V m c main_v24 : (⟨S16384x1, .f32⟩ : BufTy).Contents (Elt F))
      = rowTerm (m ((c.tc : Thread nD τ).loc main_arg0)) (m ((c.tc : Thread nD τ).loc main_arg2)) := by
  dsimp only [V]
  simp only [hostOps0, hostOps0_1, hostOps0_2, List.flatten_cons, List.flatten_nil, List.append_nil, List.cons_append, List.nil_append]
  after_results
  rfl

/-! ## The stages at an index, in the exact reading -/

section AtIdeal

/-- The log-variance scalar is the argument's one entry. -/
theorem logVar_apply (a2 : (⟨S1, .f32⟩ : BufTy).Contents (Elt Ideal)) (j : S_.Idx) :
    logVar (F := Ideal) a2 j = a2 (ix1 (0 : Fin 1)) := by
  unfold logVar
  exact shapeCast_apply a2 shapeCasts_S1_S_ j (ix1 (0 : Fin 1)) rfl

theorem invVar_apply (a2 : (⟨S1, .f32⟩ : BufTy).Contents (Elt Ideal)) (j : S_.Idx) :
    invVar (F := Ideal) a2 j = Ideal.div (Ideal.ofBits .f32 0x3F800000#32) (Ideal.exp (a2 (ix1 (0 : Fin 1)))) := by
  show Ideal.div (Ideal.ofBits .f32 0x3F800000#32) (Ideal.exp (logVar (F := Ideal) a2 j)) = _
  rw [logVar_apply]

theorem scale_apply (a2 : (⟨S1, .f32⟩ : BufTy).Contents (Elt Ideal)) (j : S_.Idx) :
    scale (F := Ideal) a2 j
      = Ideal.ofBits .f32 0xBF000000#32 * Ideal.div (Ideal.ofBits .f32 0x3F800000#32) (Ideal.exp (a2 (ix1 (0 : Fin 1)))) := by
  show Ideal.ofBits .f32 0xBF000000#32 * invVar (F := Ideal) a2 j = _
  rw [invVar_apply]

theorem halfLogDet_apply (a2 : (⟨S1, .f32⟩ : BufTy).Contents (Elt Ideal)) (j : S_.Idx) :
    halfLogDet (F := Ideal) a2 j
      = Ideal.ofBits .f32 0x3F000000#32 * (Ideal.ofBits .f32 0x43000000#32 * a2 (ix1 (0 : Fin 1))) := by
  show Ideal.ofBits .f32 0x3F000000#32 * (Ideal.ofBits .f32 0x43000000#32 * logVar (F := Ideal) a2 j) = _
  rw [logVar_apply]

/-- A mean's squared norm is the sum of its entries' squares (from zero). -/
theorem meanSq_apply (a1 : (⟨S10000x128, .f32⟩ : BufTy).Contents (Elt Ideal)) (c : Fin 10000) :
    meanSq (F := Ideal) a1 (ix1 c) = Ideal.ofBits .f32 0x00000000#32 + ∑ k : Fin 128, a1 (ix2 c k) * a1 (ix2 c k) := by
  unfold meanSq
  simp only [Host.reduceAdd, Ideal.hostReduceAdd_def]
  rw [Ideal.hostReduceAdd_single reducesTo_S10000x128_S10000_d1 (by decide)]
  refine congrArg (_ + ·) (Finset.sum_congr rfl fun k _ => ?_)
  have e : (by decide : S10000x128.Reduces [1] S10000).lift (ix1 c) k = ix2 c k :=
    funext fun a => Fin.ext (by match a with | ⟨0, _⟩ => rfl | ⟨1, _⟩ => rfl)
  show a1 _ * a1 _ = _
  rw [e]
  rfl

/-- A sample's squared norm likewise. -/
theorem sampleSq_apply (a0 : (⟨S16384x128, .f32⟩ : BufTy).Contents (Elt Ideal)) (n : Fin 16384) :
    sampleSq (F := Ideal) a0 (ix1 n) = Ideal.ofBits .f32 0x00000000#32 + ∑ k : Fin 128, a0 (ix2 n k) * a0 (ix2 n k) := by
  unfold sampleSq
  simp only [Host.reduceAdd, Ideal.hostReduceAdd_def]
  rw [Ideal.hostReduceAdd_single reducesTo_S16384x128_S16384_d1 (by decide)]
  refine congrArg (_ + ·) (Finset.sum_congr rfl fun k _ => ?_)
  have e : (by decide : S16384x128.Reduces [1] S16384).lift (ix1 n) k = ix2 n k :=
    funext fun a => Fin.ext (by match a with | ⟨0, _⟩ => rfl | ⟨1, _⟩ => rfl)
  show a0 _ * a0 _ = _
  rw [e]
  rfl

/-- The staged samples are the samples. -/
theorem samples_apply (a0 : (⟨S16384x128, .f32⟩ : BufTy).Contents (Elt Ideal)) (i : S16384x128.Idx) :
    samples (F := Ideal) a0 i = a0 i := rfl

/-- The staged means at (k, c): the mean c's entry k, scaled by iv. -/
theorem meansT_apply (a1 : (⟨S10000x128, .f32⟩ : BufTy).Contents (Elt Ideal)) (a2 : (⟨S1, .f32⟩ : BufTy).Contents (Elt Ideal))
    (k : Fin 128) (c : Fin 10000) :
    meansT (F := Ideal) a1 a2 (ix2 k c)
      = a1 (ix2 c k) * Ideal.div (Ideal.ofBits .f32 0x3F800000#32) (Ideal.exp (a2 (ix1 (0 : Fin 1)))) := by
  unfold meansT
  rw [truncf_apply, transpose_apply [1, 0] _ transposes_S10000x128_S128x10000_1_0 (ix2 k c) (ix2 c k)
    (fun a => by match a with | ⟨0, _⟩ => rfl | ⟨1, _⟩ => rfl), mulf_apply,
    broadcastInDim_apply _ bcast_S_S10000x128 _ (ix2 c k) ix0 (fun a => a.elim0), invVar_apply]

/-- The staged bias row at (0, c). -/
theorem biasRow_apply (a1 : (⟨S10000x128, .f32⟩ : BufTy).Contents (Elt Ideal)) (a2 : (⟨S1, .f32⟩ : BufTy).Contents (Elt Ideal))
    (a3 : (⟨S10000, .f32⟩ : BufTy).Contents (Elt Ideal)) (c : Fin 10000) :
    biasRow (F := Ideal) a1 a2 a3 (ix2 (0 : Fin 1) c)
      = (logPrior (F := Ideal) a3 (ix1 c)
          - Ideal.ofBits .f32 0x3F000000#32 * (Ideal.ofBits .f32 0x43000000#32 * a2 (ix1 (0 : Fin 1))))
        + (Ideal.ofBits .f32 0xBF000000#32 * Ideal.div (Ideal.ofBits .f32 0x3F800000#32) (Ideal.exp (a2 (ix1 (0 : Fin 1)))))
          * (Ideal.ofBits .f32 0x00000000#32 + ∑ k : Fin 128, a1 (ix2 c k) * a1 (ix2 c k)) := by
  unfold biasRow
  rw [shapeCast_a_1a_apply]
  unfold bias
  rw [addf_apply, subf_apply, mulf_apply, broadcastInDim_apply _ bcast_S_S10000 _ (ix1 c) ix0 (fun a => a.elim0),
    broadcastInDim_apply _ bcast_S_S10000 _ (ix1 c) ix0 (fun a => a.elim0), halfLogDet_apply, scale_apply, meanSq_apply]

/-- The staged row term at (n, 0). -/
theorem rowTerm_apply (a0 : (⟨S16384x128, .f32⟩ : BufTy).Contents (Elt Ideal)) (a2 : (⟨S1, .f32⟩ : BufTy).Contents (Elt Ideal))
    (n : Fin 16384) :
    rowTerm (F := Ideal) a0 a2 (ix2 n (0 : Fin 1))
      = (Ideal.ofBits .f32 0xBF000000#32 * Ideal.div (Ideal.ofBits .f32 0x3F800000#32) (Ideal.exp (a2 (ix1 (0 : Fin 1)))))
          * (Ideal.ofBits .f32 0x00000000#32 + ∑ k : Fin 128, a0 (ix2 n k) * a0 (ix2 n k)) := by
  unfold rowTerm
  rw [mulf_apply, broadcastInDim_apply _ bcast_S_S16384x1 _ (ix2 n (0 : Fin 1)) ix0 (fun a => a.elim0),
    broadcastInDim_apply _ bcast_S16384_S16384x1_0 _ (ix2 n (0 : Fin 1)) (ix1 n)
      (fun a => by match a with | ⟨0, _⟩ => show n.val = if (16384 : Nat) = 1 then 0 else n.val; rw [if_neg (by decide)]),
    scale_apply, sampleSq_apply]

end AtIdeal

end Cert.KernelIdeal.Host

end
-- ==== Proof.ScoreArray.lean ====
/-
  The kernel's result array as one function of the arguments.

  Grid point t stages rows 256 t … 256 t + 255 of the samples and of the row terms, the whole scaled means and
  the whole bias row, and writes back rows 256 t … 256 t + 255 of the output, every column. Its tile at (p, q)
  is bias q + rowterm (256 t + p) + the inner product of sample 256 t + p with scaled mean q: with the host's
  stages read at those indices this is the kernel's form of the score of sample n = 256 t + p and class q.
  The 64 row bands cover the array, so the array is the score everywhere.
-/
import proofs.«430453_j54116587929768_3_alg».proof.Proof.Gen.KernelIdeal.Value
import proofs.«430453_j54116587929768_3_alg».proof.Proof.ScoreTile
import proofs.«430453_j54116587929768_3_alg».proof.Proof.HostStages
import proofs.«430453_j54116587929768_3_alg».proof.Proof.Discriminant
import Idealize.ShloMosaic.Lib.Pipeline.Value
import Idealize.ShloMosaic.Lib.ValueIdx

set_option maxRecDepth 16384

noncomputable section

namespace Cert.KernelIdeal.Score

open Cert.KernelIdeal Cert.KernelIdeal.Gen Cert.KernelIdeal.Value Cert.KernelIdeal.Tile Cert.KernelIdeal.Host
open Idealize.ShloMosaic Idealize.ShloMosaic.TcCoe Idealize.ShloMosaic.ValueIdx Idealize.SL.Sem
open Idealize.ShloMosaic.Pipeline (Dat)

/-- The score array: at (n, c) the kernel's form of the score of sample n and class c. -/
def score (a0 : (⟨S16384x128, .f32⟩ : BufTy).Contents (Elt Ideal)) (a1 : (⟨S10000x128, .f32⟩ : BufTy).Contents (Elt Ideal))
    (a2 : (⟨S1, .f32⟩ : BufTy).Contents (Elt Ideal)) (a3 : (⟨S10000, .f32⟩ : BufTy).Contents (Elt Ideal)) :
    S16384x10000.Idx → EReal := fun i =>
  Cert.Discriminant.kernelForm (logPrior (F := Ideal) a3 (ix1 (i 1))) (a2 (ix1 (0 : Fin 1)))
    (fun k => a0 (ix2 (i 0) k)) (fun k => a1 (ix2 (i 1) k))

/-- A tile whose blocks read the host's stages at sample n (row p of the tile) and class q is the score there. -/
theorem tile_eq_score (X0 : Vec Ideal S256x128 .bf16) (X1 : Vec Ideal S128x10000 .bf16) (X2 : Vec Ideal S1x10000 .f32)
    (X3 : Vec Ideal S256x1 .f32)
    (a0 : (⟨S16384x128, .f32⟩ : BufTy).Contents (Elt Ideal)) (a1 : (⟨S10000x128, .f32⟩ : BufTy).Contents (Elt Ideal))
    (a2 : (⟨S1, .f32⟩ : BufTy).Contents (Elt Ideal)) (a3 : (⟨S10000, .f32⟩ : BufTy).Contents (Elt Ideal))
    (n : Fin 16384) (p : Fin 256) (q : Fin 10000)
    (h0 : ∀ k : Fin 128, X0 (ix2 p k) = samples (F := Ideal) a0 (ix2 n k))
    (h1 : ∀ k : Fin 128, X1 (ix2 k q) = meansT (F := Ideal) a1 a2 (ix2 k q))
    (h2 : X2 (ix2 (0 : Fin 1) q) = biasRow (F := Ideal) a1 a2 a3 (ix2 (0 : Fin 1) q))
    (h3 : X3 (ix2 p (0 : Fin 1)) = rowTerm (F := Ideal) a0 a2 (ix2 n (0 : Fin 1))) :
    tile X0 X1 X2 X3 (ix2 p q) = score a0 a1 a2 a3 (ix2 n q) := by
  unfold tile score Cert.Discriminant.kernelForm
  show (X2 (ix2 (0 : Fin 1) q) + X3 (ix2 p (0 : Fin 1))) + ∑ k : Fin 128, X0 (ix2 p k) * X1 (ix2 k q) = _
  rw [h2, h3, Finset.sum_congr rfl fun k _ => show X0 (ix2 p k) * X1 (ix2 k q) = _ from by rw [h0 k, h1 k, samples_apply, meansT_apply],
    biasRow_apply, rowTerm_apply]

variable (m : (ℓ : Loc nD τ sig) → Buf (Elt Ideal) ℓ) (ρ : Dev nD → PrngReg)

/-- The printed index maps over the grid: the row-banded windows are at band t, the resident ones at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem N_eq : cfg0.N = 64 := N_0

/-- WHAT POINT t WRITES BACK is block t of the score array. -/
theorem flushed_eq (c : Dev nD) (t : Fin cfg0.N) :
    (dats m 0 c).flushed 4 t = ((cfg0.win 4).blk t).view.read (Elt Ideal)
      (score (m ((c.tc : Thread nD τ).loc main_arg0)) (m ((c.tc : Thread nD τ).loc main_arg1))
        (m ((c.tc : Thread nD τ).loc main_arg2)) (m ((c.tc : Thread nD τ).loc main_arg3))) := by
  rw [flushed4_A, out_eq_tile]
  obtain ⟨e00, e01, e10, e11, e20, e21, e30, e31, e40, e41⟩ := idx_facts t
  have ht : t.val < 64 := lt_of_lt_of_eq t.isLt N_eq
  funext j
  obtain ⟨p, q, rfl⟩ : ∃ (p : Fin 256) (q : Fin 10000), j = ix2 p q := ⟨j 0, j 1, eq_ix2 j⟩
  show tile (iblk m c 0 t) (iblk m c 1 t) (iblk m c 2 t) (iblk m c 3 t) (ix2 p q)
    = score _ _ _ _ (((cfg0.win 4).blk t).view.emb (ix2 p q))
  have hn : 256 * t.val + p.val < 16384 := by have := p.isLt; omega
  have hemb : ((cfg0.win 4).blk t).view.emb (ix2 p q) = ix2 (⟨256 * t.val + p.val, hn⟩ : Fin 16384) q :=
    Shape.idx_ext₂ (by show win0_4.index t (0 : Fin 2) * 256 + 1 * p.val = _; rw [e40]; show _ = 256 * t.val + p.val; omega)
      (by show win0_4.index t (1 : Fin 2) * 10000 + 1 * q.val = _; rw [e41]; show _ = q.val; omega)
  rw [hemb]
  refine tile_eq_score _ _ _ _ _ _ _ _ ⟨256 * t.val + p.val, hn⟩ p q (fun k => ?_) (fun k => ?_) ?_ ?_
  · show V m c main_v19 (((cfg0.win 0).blk t).view.emb (ix2 p k)) = _
    rw [V_samples]
    exact congrArg _ (Shape.idx_ext₂
      (by show win0_0.index t (0 : Fin 2) * 256 + 1 * p.val = _; rw [e00]; show _ = 256 * t.val + p.val; omega)
      (by show win0_0.index t (1 : Fin 2) * 128 + 1 * k.val = _; rw [e01]; show _ = k.val; omega))
  · show V m c main_v18 (((cfg0.win 1).blk t).view.emb (ix2 k q)) = _
    rw [V_meansT]
    exact congrArg _ (Shape.idx_ext₂
      (by show win0_1.index t (0 : Fin 2) * 128 + 1 * k.val = _; rw [e10]; show _ = k.val; omega)
      (by show win0_1.index t (1 : Fin 2) * 10000 + 1 * q.val = _; rw [e11]; show _ = q.val; omega))
  · show V m c main_v14 (((cfg0.win 2).blk t).view.emb (ix2 (0 : Fin 1) q)) = _
    rw [V_biasRow]
    exact congrArg _ (Shape.idx_ext₂
      (by show win0_2.index t (0 : Fin 2) * 1 + 1 * 0 = _; rw [e20]; rfl)
      (by show win0_2.index t (1 : Fin 2) * 10000 + 1 * q.val = _; rw [e21]; show _ = q.val; omega))
  · show V m c main_v24 (((cfg0.win 3).blk t).view.emb (ix2 p (0 : Fin 1))) = _
    rw [V_rowTerm]
    exact congrArg _ (Shape.idx_ext₂
      (by show win0_3.index t (0 : Fin 2) * 256 + 1 * p.val = _; rw [e30]; show _ = 256 * t.val + p.val; omega)
      (by show win0_3.index t (1 : Fin 2) * 1 + 1 * 0 = _; rw [e31]; rfl))

/-- An index of the array is in point t's block iff each coordinate is in the block's range on its axis. -/
theorem mem_blk (t : Fin cfg0.N) (i : S16384x10000.Idx) :
    i ∈ ((cfg0.win 4).blk t).view.set ↔ ∀ a : Fin 2, win0_4.index t a * S256x10000.size a ≤ (i a).val
      ∧ (i a).val < win0_4.index t a * S256x10000.size a + S256x10000.size a := by
  show i ∈ ((View.whole main_v25).slice (win0_4.rect t)).set ↔ _
  rw [View.set_slice_whole, Rect.mem_set_unit]
  exact Iff.rfl

/-- THE ARRAY after the run: the score everywhere (row n lies in band n / 256). -/
theorem final (c : Dev nD) : (dats m 0 c).arrAt 4 cfg0.N
    = score (m ((c.tc : Thread nD τ).loc main_arg0)) (m ((c.tc : Thread nD τ).loc main_arg1))
        (m ((c.tc : Thread nD τ).loc main_arg2)) (m ((c.tc : Thread nD τ).loc main_arg3)) :=
  (dats m 0 c).arrAt_eq_of_cover 4 _ (fun t _ => flushed_eq m c t) fun i => by
    have hi0 : (i 0).val < 16384 := (i 0).isLt
    have hi1 : (i 1).val < 10000 := (i 1).isLt
    have hlt : (i 0).val / 256 < cfg0.N := lt_of_lt_of_eq (by omega : (i 0).val / 256 < 64) N_eq.symm
    refine ⟨⟨(i 0).val / 256, hlt⟩, flush0_4 _, ?_⟩
    rw [mem_blk]
    obtain ⟨-, -, -, -, -, -, -, -, e40, e41⟩ := idx_facts ⟨(i 0).val / 256, hlt⟩
    intro a
    match a with
    | ⟨0, _⟩ =>
      show win0_4.index ⟨(i 0).val / 256, hlt⟩ (0 : Fin 2) * 256 ≤ (i 0).val
        ∧ (i 0).val < win0_4.index ⟨(i 0).val / 256, hlt⟩ (0 : Fin 2) * 256 + 256
      rw [e40]; show (i 0).val / 256 * 256 ≤ (i 0).val ∧ (i 0).val < (i 0).val / 256 * 256 + 256; omega
    | ⟨1, _⟩ =>
      show win0_4.index ⟨(i 0).val / 256, hlt⟩ (1 : Fin 2) * 10000 ≤ (i 1).val
        ∧ (i 1).val < win0_4.index ⟨(i 0).val / 256, hlt⟩ (1 : Fin 2) * 10000 + 10000
      rw [e41]; omega

/-- The run, read: the result array at the score, the arguments unchanged. -/
theorem run : θ_run defs (onTc (τ := τ) (main (F := Ideal))) ⟨m, fun _ => 0, ρ⟩ fun r => ∀ c : Dev nD,
      r.2.mem ((c : Thread nD τ).loc main_v25)
        = score (m ((c.tc : Thread nD τ).loc main_arg0)) (m ((c.tc : Thread nD τ).loc main_arg1))
            (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Score

end
-- ==== Proof.ReferenceScore.lean ====
/-
  The reference's result at (n, c) is the reference form of the score: its host operations read one at a time
  at the index give the log-prior of class c minus half of (the expanded squared distance of sample n to mean
  c, divided by the variance, plus 128 times the log-variance).
-/
import proofs.«430453_j54116587929768_3_alg».proof.Proof.ReferenceRead
import proofs.«430453_j54116587929768_3_alg».proof.Proof.Discriminant
import Idealize.ShloMosaic.Lib.Pipeline.Value
import Idealize.ShloMosaic.Lib.ValueIdx
import Idealize.ShloMosaic.PureOps.Ideal.Laws

noncomputable section

namespace Cert.ReferenceIdeal.Score

open Cert.ReferenceIdeal Cert.ReferenceIdeal.Gen Cert.ReferenceIdeal.ReadP
open Idealize.ShloMosaic Idealize.ShloMosaic.TcCoe Idealize.ShloMosaic.ValueIdx

/-- The log-variance scalar is the third argument's one entry. -/
theorem logVar_apply (x2 : (⟨S1, .f32⟩ : BufTy).Contents (Elt Ideal)) (j : S_.Idx) :
    val_main_v13 (F := Ideal) x2 j = x2 (ix1 (0 : Fin 1)) := by
  unfold val_main_v13
  exact shapeCast_apply x2 shapeCasts_S1_S_ j (ix1 (0 : Fin 1)) rfl

/-- The printed index functions at (n, c), as coordinates. -/
theorem idx_prior (n : Fin 16384) (c : Fin 10000) : idx_main_v17 (idx_main_v24 (ix2 n c)) = ix1 c :=
  funext fun a => Fin.ext (by match a with | ⟨0, _⟩ => rfl)
theorem idx_sample (n : Fin 16384) (c : Fin 10000) (k : Fin 128) :
    idx_main_v1 (idx_main_v2 (idx_main_v8 (ix2 n c))) k = ix2 n k :=
  funext fun a => Fin.ext (by match a with | ⟨0, _⟩ => rfl | ⟨1, _⟩ => rfl)
theorem idx_mean (n : Fin 16384) (c : Fin 10000) (k : Fin 128) :
    idx_main_v4 (idx_main_v10 (idx_main_v11 (ix2 n c))) k = ix2 c k :=
  funext fun a => Fin.ext (by match a with | ⟨0, _⟩ => rfl | ⟨1, _⟩ => rfl)
theorem idx_cross_l (n : Fin 16384) (c : Fin 10000) (k : Fin 128) : lidx_main_v5 (ix2 n c) k = ix2 n k :=
  funext fun a => Fin.ext (by match a with | ⟨0, _⟩ => rfl | ⟨1, _⟩ => rfl)
theorem idx_cross_r (n : Fin 16384) (c : Fin 10000) (k : Fin 128) : ridx_main_v5 (ix2 n c) k = ix2 c k :=
  funext fun a => Fin.ext (by match a with | ⟨0, _⟩ => rfl | ⟨1, _⟩ => rfl)

/-- The reference's result at (n, c). -/
theorem result_apply (x0 : (⟨S16384x128, .f32⟩ : BufTy).Contents (Elt Ideal)) (x1 : (⟨S10000x128, .f32⟩ : BufTy).Contents (Elt Ideal))
    (x2 : (⟨S1, .f32⟩ : BufTy).Contents (Elt Ideal)) (x3 : (⟨S10000, .f32⟩ : BufTy).Contents (Elt Ideal))
    (n : Fin 16384) (c : Fin 10000) :
    val_main_v25 (F := Ideal) x0 x1 x2 x3 (ix2 n c)
      = Cert.Discriminant.referenceForm (val_main_v16 (F := Ideal) x3 (ix1 c)) (x2 (ix1 (0 : Fin 1)))
          (fun k => x0 (ix2 n k)) (fun k => x1 (ix2 c k)) := by
  rw [val_main_v25_apply, val_main_v24_apply, val_main_v17_apply, val_main_v23_apply, val_main_v22_apply, val_main_cst_3_apply,
    val_main_v21_apply, val_main_v19_apply, val_main_v12_apply, val_main_v9_apply, val_main_v8_apply, val_main_v2_apply,
    val_main_v1_apply, val_main_v7_apply, val_main_v6_apply, val_main_cst_1_apply, val_main_v5_apply, val_main_v11_apply,
    val_main_v10_apply, val_main_v4_apply, val_main_v18_apply, val_main_v14_apply, val_main_v20_apply, val_main_v15_apply,
    val_main_cst_2_apply]
  simp only [val_main_v0_apply, val_main_v3_apply, val_main_cst_apply, val_main_cst_0_apply, idx_prior, idx_sample, idx_mean,
    idx_cross_l, idx_cross_r, logVar_apply, Ideal.addf_def, Ideal.subf_def, Ideal.mulf_def, Ideal.hostDivf_def,
    Ideal.ofBits_def, Ideal.hostUnary_exp_def]
  rfl

end Cert.ReferenceIdeal.Score

end
-- ==== Proof.FiniteInputs.lean ====
/-
  The precondition, read: every entry of the samples, of the means and of the log-variance is a real number.

  The precondition is the conjunction of four tests "the absolute value of every entry is below +infinity", each
  folded over its array by `and` from `true`. A conjunction that is `true` has every conjunct `true`; a fold by
  `and` that is `true` met only `true`; and an extended real whose absolute value is below +infinity is neither
  infinity, so it is the image of a real. (The fourth argument's test is not needed: the log-prior is the same
  extended real in both programs and is only added to reals.)
-/
import proofs.«430453_j54116587929768_3_alg».proof.Pre_finite_inputs
import proofs.«430453_j54116587929768_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value tests below +infinity is a real. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition the samples, the means and the log-variance hold reals. -/
theorem reals_of_pre (a0 : FVec Ideal S16384x128 .f32) (a1 : FVec Ideal S10000x128 .f32) (a2 : FVec Ideal S1 .f32)
    (a3 : FVec Ideal S10000 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h012, -⟩ := IntOp.andi_eq_one.mp h0
  obtain ⟨h01, h2⟩ := IntOp.andi_eq_one.mp h012
  obtain ⟨hz, hm⟩ := IntOp.andi_eq_one.mp h01
  exact ⟨fun i => real_of_abs_lt (a0 i) (Host.reduce_andi_all _ _ _ _ ix0 hz i),
    fun i => real_of_abs_lt (a1 i) (Host.reduce_andi_all _ _ _ _ ix0 hm i),
    fun i => real_of_abs_lt (a2 i) (Host.reduce_andi_all _ _ _ _ ix0 h2 i)⟩

end Cert.Pre_finite_inputs.Finite

end
-- ==== Proof.lean ====
/-
  The certificate of a Gaussian discriminant head: for every sample z_n (16384 of them, 128 entries), class mean
  mu_c (10000 of them), shared log-variance lc and prior logits, the score

      out (n, c) = logPrior c - 1/2 * ( |z_n - mu_c|^2 / exp lc + 128 * lc ),      logPrior = log-softmax of the logits.

  The reference expands the squared distance as |z_n|^2 - 2 <z_n, mu_c> + |mu_c|^2 and divides by exp lc. The
  kernel's host code prepares a per-class bias logPrior c - 64 lc - |mu_c|^2 / (2 exp lc), a per-sample term
  -|z_n|^2 / (2 exp lc) and the means scaled by 1 / exp lc and transposed; the kernel then adds, tile by tile
  and column chunk by column chunk, bias + sample term + <z_n, scaled mu_c>. Over the extended reals, with every
  entry of z, mu and lc finite (the precondition), the two are equal: the law is distributivity of the product
  with 1 / exp lc and with -1/2 over the sums (Proof/Discriminant.lean), and the log-prior, the same extended
  real on both sides, is only ever added to a real.

  The parts: what one column chunk of a tile holds (Proof/ScoreChunk.lean), the tile as one function of the
  point's blocks (Proof/ScoreTile.lean), the host's stages at an index (Proof/HostStages.lean), the output array
  as the kernel's form of the score everywhere (Proof/ScoreArray.lean), the reference's result as the reference's
  form (Proof/ReferenceScore.lean), the precondition read as "real entries" (Proof/FiniteInputs.lean). The three
  frames are the generated frame runs; the idealization rewrote nothing, so its claim is trivial.
-/
import proofs.«430453_j54116587929768_3_alg».proof.Defs
import proofs.«430453_j54116587929768_3_alg».proof.Proof.Gen.Kernel
import proofs.«430453_j54116587929768_3_alg».proof.Proof.Gen.Kernel.Skeleton
import proofs.«430453_j54116587929768_3_alg».proof.Proof.Gen.Kernel.Launch
import proofs.«430453_j54116587929768_3_alg».proof.Proof.Gen.Kernel.Points
import proofs.«430453_j54116587929768_3_alg».proof.Proof.Gen.Kernel.Frame
import proofs.«430453_j54116587929768_3_alg».proof.Proof.Gen.KernelIdeal
import proofs.«430453_j54116587929768_3_alg».proof.Proof.Gen.KernelIdeal.Skeleton
import proofs.«430453_j54116587929768_3_alg».proof.Proof.Gen.KernelIdeal.Launch
import proofs.«430453_j54116587929768_3_alg».proof.Proof.Gen.KernelIdeal.Points
import proofs.«430453_j54116587929768_3_alg».proof.Proof.Gen.KernelIdeal.Frame
import proofs.«430453_j54116587929768_3_alg».proof.Proof.Gen.ReferenceIdeal
import proofs.«430453_j54116587929768_3_alg».proof.Proof.Gen.Pre_finite_inputs
import proofs.«430453_j54116587929768_3_alg».proof.Proof.Gen.KernelIdeal.Value
import proofs.«430453_j54116587929768_3_alg».proof.Proof.ReferenceRun
import proofs.«430453_j54116587929768_3_alg».proof.Proof.ReferenceRead
import proofs.«430453_j54116587929768_3_alg».proof.Proof.Discriminant
import proofs.«430453_j54116587929768_3_alg».proof.Proof.ScoreChunk
import proofs.«430453_j54116587929768_3_alg».proof.Proof.ScoreTile
import proofs.«430453_j54116587929768_3_alg».proof.Proof.HostStages
import proofs.«430453_j54116587929768_3_alg».proof.Proof.ScoreArray
import proofs.«430453_j54116587929768_3_alg».proof.Proof.ReferenceScore
import proofs.«430453_j54116587929768_3_alg».proof.Proof.FiniteInputs
import Idealize.ShloMosaic.Adequacy
import Idealize.ShloMosaic.Init
import Idealize.ShloMosaic.Lib.ValueIdx

noncomputable section

namespace Cert.Proof

open Idealize.ShloMosaic Idealize.ShloMosaic.TcCoe Idealize.ShloMosaic.ValueIdx Idealize.SL.Sem

/-- The log-prior is one chain of operations in both programs: the shifted logits minus the log of the sum of
    their exponentials. -/
theorem logPrior_eq {F : FTy → Type} [FloatOps F] (x : (⟨Cert.KernelIdeal.S10000, .f32⟩ : BufTy).Contents (Elt F)) :
    Cert.KernelIdeal.Host.logPrior (F := F) x = Cert.ReferenceIdeal.ReadP.val_main_v16 (F := F) x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the score array: the kernel's at its own form of the score (Proof/ScoreArray.lean),
    the reference's at the reference form (Proof/ReferenceScore.lean); with real samples, means and
    log-variance (the precondition) the two forms are one number (Proof/Discriminant.lean). -/
theorem algebraic : Cert.algebraic_KernelIdeal_ReferenceIdeal := by
  intro m ρ m' ρ' hpre hagree
  refine ⟨fun c => Cert.KernelIdeal.Score.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Score.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2, Cert.ReferenceIdeal.ReadP.val_main_v25_eq]
  obtain ⟨hz, hmu, hl⟩ := Cert.Pre_finite_inputs.Finite.reals_of_pre _ _ _ _ (hpre c)
  choose zr hzr using hz
  choose mr hmr using hmu
  choose lr hlr using hl
  funext i
  obtain ⟨n, q, rfl⟩ : ∃ (n : Fin 16384) (q : Fin 10000), i = ix2 n q := ⟨i 0, i 1, eq_ix2 i⟩
  rw [Cert.ReferenceIdeal.Score.result_apply]
  show _ = Cert.Discriminant.kernelForm
    (Cert.KernelIdeal.Host.logPrior (F := Ideal) (m ((c.tc : Thread Cert.KernelIdeal.nD Cert.KernelIdeal.τ).loc Cert.KernelIdeal.main_arg3)) (ix1 q))
    (m ((c.tc : Thread Cert.KernelIdeal.nD Cert.KernelIdeal.τ).loc Cert.KernelIdeal.main_arg2) (ix1 (0 : Fin 1)))
    (fun k => m ((c.tc : Thread Cert.KernelIdeal.nD Cert.KernelIdeal.τ).loc Cert.KernelIdeal.main_arg0) (ix2 n k))
    (fun k => m ((c.tc : Thread Cert.KernelIdeal.nD Cert.KernelIdeal.τ).loc Cert.KernelIdeal.main_arg1) (ix2 q k))
  rw [logPrior_eq]
  simp only [hzr, hmr, hlr]
  exact (Cert.Discriminant.kernelForm_eq_referenceForm _ (lr _) (fun k => zr (ix2 n k)) (fun k => mr (ix2 q k))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
